-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S50000x128 : Shape := ⟨2, ![50000, 128]⟩
abbrev S2000x256 : Shape := ⟨2, ![2000, 256]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 24
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S50000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  dot_S2000x256_S256x128_S2000x128_1_0_0_1_n_n_wf : DotDims.WF S2000x256 S256x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S50000x128 : Shape := ⟨2, ![50000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S50000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Spec.lean ====
/-
  The two whole-array functions this certificate's programs are compared through, index by index, over the
  literal shapes: nodes are the 50000 rows, input features 256 columns, output features 128 columns.

  `feat x w` is the dense product: entry (n, j) is the sum over the 256 input features k of x[n, k] · w[k, j],
  on the extended reals. Both programs form exactly this sum: the contraction axis is never split, only the
  rows are, so no term moves and no law of the extended reals beyond the sum's own definition is used.

  `act a b` adds the bias b[j] to every row of a and takes the maximum with zero, entry by entry. It is
  stated at any float instance: it is one element of each operand, whatever the operations denote.
-/
import Idealize.ShloMosaic.PureOps.Ideal
import Idealize.ShloMosaic.Lib.ValueIdx

noncomputable section

namespace Cert.Spec

open Idealize.ShloMosaic Idealize.ShloMosaic.ValueIdx

/-- [nodes, input features]. -/
abbrev SX : Shape := ⟨2, ![50000, 256]⟩
/-- [input features, output features]. -/
abbrev SW : Shape := ⟨2, ![256, 128]⟩
/-- [nodes, output features]. -/
abbrev SO : Shape := ⟨2, ![50000, 128]⟩
/-- [output features]. -/
abbrev SB : Shape := ⟨1, ![128]⟩

/-- Entry (n, j) of the dense product, from the coordinates: the sum over k of x[n, k] · w[k, j]. -/
def featAt (x : FVec Ideal SX .f32) (w : FVec Ideal SW .f32) (n : Fin 50000) (j : Fin 128) : EReal :=
  ∑ k : Fin 256, x (ix2 n k) * w (ix2 k j)

/-- The dense product x · w as one function of the index. -/
def feat (x : FVec Ideal SX .f32) (w : FVec Ideal SW .f32) : FVec Ideal SO .f32 :=
  fun i => featAt x w (i 0) (i 1)

variable {F : FTy → Type} [FloatOps F]

/-- Bias-then-rectify as one function of the index: entry i = (n, j) is max (a[n, j] + b[j]) 0. -/
def act (a : FVec F SO .f32) (b : FVec F SB .f32) : FVec F SO .f32 :=
  fun i => FloatOps.maximumf (FloatOps.addf (a i) (b (ix1 (i 1)))) (FloatOps.ofBits .f32 0x00000000#32)

end Cert.Spec

end
-- ==== Proof.Chain.lean ====
/-
  The host operations both programs apply between the dense product and the bias, as ONE function.

  Sixteen operations: an edge's column index below zero is moved up by the number of nodes (50000); for every edge e
  row `cols[e]` of the dense product `pre` is gathered, scaled by the edge's value `vals[e]` (repeated along the 128
  features), and added into row `rows[e]` of an array that starts all zero. The kernel's program and the reference
  spell this chain identically, operation by operation and literal by literal, so the certificate only ever needs
  that it IS a function of (pre, rows, cols, vals): equal dense products give equal results, whatever a gather
  or a scatter-add does with an index outside the array.
-/
import proofs.«162084_j14474039787903_1_alg».proof.Proof.Gen.KernelIdeal

noncomputable section

namespace Cert.KernelIdeal.Chain

open Cert.KernelIdeal Cert.KernelIdeal.Gen
open Idealize.ShloMosaic

variable {F : FTy → Type} [FloatOps F]

/-- The chain as one function of what it reads: the dense product, the edges' row and column indices, the edges'
    values. -/
def mid (pre : (⟨S50000x128, .f32⟩ : BufTy).Contents (Elt F)) (rows cols : (⟨S1600000, .i32⟩ : BufTy).Contents (Elt F))
    (vals : (⟨S1600000, .f32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant (F := F) S_ .f32 0x00000000#32))
    (broadcastInDim S1600000x1 ![0] bcast_S1600000_S1600000x1_0 rows)
    (mulf
      (broadcastInDim S1600000x128 ![0, 1] bcast_S1600000x1_S1600000x128_0_1
        (broadcastInDim S1600000x1 ![0] bcast_S1600000_S1600000x1_0 vals))
      (Host.gather gather_S50000x128_S1600000x1_S1600000x128_1_0_n_n_0_1_1128 pre
        (broadcastInDim S1600000x1 ![0] bcast_S1600000_S1600000x1_0
          (select
            (cmpi CmpIPredicate.slt cols (broadcastInDim S1600000 ![] bcast_S_S1600000 (constantI S_ 32 0#32)))
            (addi cols (broadcastInDim S1600000 ![] bcast_S_S1600000 (constantI S_ 32 50000#32)))
            cols))))

end Cert.KernelIdeal.Chain

end
-- ==== Proof.Region0.lean ====
/-
  The first kernel region (the dense product), read as a value on the extended reals.

  The region walks the 50000 rows of the node features in 25 blocks of 2000 rows; point t reads rows
  2000·t … 2000·t + 1999 of x, the whole weight matrix w, and writes the same rows of the output. Inside a block
  the body narrows both operands to a shorter float format — the identity on the extended reals — and multiplies
  them into a zero accumulator: entry (p, q) of the block is the sum over the 256 input features k of
  x[p, k] · w[k, q], the zero accumulator adding nothing. The contraction is whole inside every block, so a
  block's entry is already the entry of the whole product `Spec.feat` at the same row of the array; no sum is
  split or reordered.

  So what point t writes back is block t of `Spec.feat` of the arrays as the region finds them; the 25 blocks
  tile the rows, row n lying in block n / 2000; hence the output array ends at `Spec.feat` of the region's entry
  contents, whatever those are.
-/
import proofs.«162084_j14474039787903_1_alg».proof.Proof.Gen.KernelIdeal.Frame
import proofs.«162084_j14474039787903_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.SL.Sem Idealize.ShloMosaic.ValueIdx
open Idealize.ShloMosaic.Pipeline (Dat)

theorem off2 : (![0, 0] : Fin 2 → Nat) = fun _ => 0 := funext fun a => by fin_cases a <;> rfl

/-! ## The operand indices of the block product

At output entry i and contraction index q the left operand is read at (row of i, q) and the right at
(q, column of i): one lemma per operand axis. -/

theorem lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_contr (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_contr (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## The body's arithmetic at one entry of a block -/

/-- Entry (p, q) of the block the body stores: the sum over k of x[p, k] · w[k, q] — the narrowing of the operands
    is the identity and the accumulator is zero. -/
theorem pay_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_contr _ _).trans hk
    | ⟨1, _⟩ => exact rhs_col _ _)
  rw [el, er]
  rfl

/-- The same at an index of the block. -/
theorem pay_at (x0 : Vec Ideal S2000x256 .f32) (x1 : Vec Ideal S256x128 .f32) (y : S2000x128.Idx) :
    k0_pay1 (F := Ideal) x0 x1 y = ∑ k : Fin 256, x0 (ix2 (y 0) k) * x1 (ix2 k (y 1)) :=
  (congrArg (k0_pay1 (F := Ideal) x0 x1) (eq_ix2 y)).trans (pay_apply x0 x1 (y 0) (y 1))

/-- A block's row sum is the whole product's entry as soon as the block's row p is the array's row n and the block's
    column q the array's column r: term by term the same products. -/
theorem row_sum_eq (xb : Vec Ideal S2000x256 .f32) (wb : Vec Ideal S256x128 .f32) (xa : FVec Ideal SX .f32) (wa : FVec Ideal SW .f32)
    (p : Fin 2000) (q : Fin 128) (n : Fin 50000) (r : Fin 128)
    (hx : ∀ k : Fin 256, xb (ix2 p k) = xa (ix2 n k)) (hw : ∀ k : Fin 256, wb (ix2 k q) = wa (ix2 k r)) :
    ∑ k : Fin 256, xb (ix2 p k) * wb (ix2 k q) = featAt xa wa n r := by
  unfold featAt
  exact Finset.sum_congr rfl fun k _ => by rw [hx k, hw k]

/-! ## Which rows a point touches -/

/-- The printed index maps over the 25 points: the features and the output move together down the rows, point t at
    block t, always the first column block; the weights are always their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-! ## What a point writes back -/

/-- Point t writes back block t of the whole product of the feature array and the weights as the region finds them. -/
theorem flushed_eq (c : Dev nD) (t : Fin cfg0.N) :
    (dat0 V c).flushed 2 t = ((cfg0.win 2).blk t).view.read (Elt Ideal) (feat (V c main_arg0) (V c main_arg4)) := by
  show (cfg0.win 2).cut (grid0.coords t) ((dat0 V c).after 2 t) = _
  rw [after0_2]
  unfold out0_2
  rw [View.canon_unit_zero off2]
  simp only [View.ld_unit_zero (S := S2000x256) off2, View.ld_unit_zero (S := S256x128) off2]
  obtain ⟨e0, e1, e2, e3, e4, e5⟩ := idx_facts t
  funext j
  show k0_pay1 (F := Ideal) (iblk0 V c 0 t) (iblk0 V c 1 t) j = feat (V c main_arg0) (V c main_arg4) (((cfg0.win 2).blk t).view.emb j)
  refine (pay_at (iblk0 V c 0 t) (iblk0 V c 1 t) j).trans ?_
  refine row_sum_eq (iblk0 V c 0 t) (iblk0 V c 1 t) (V c main_arg0) (V c main_arg4) (j 0) (j 1)
    ((((cfg0.win 2).blk t).view.emb j) 0) ((((cfg0.win 2).blk t).view.emb j) 1) (fun k => ?_) (fun k => ?_)
  · -- row (j 0) of the feature block is row 2000·t + (j 0) of the feature array, the output block's own row
    show V c main_arg0 (((cfg0.win 0).blk t).view.emb (ix2 (j 0) k)) = _
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · -- the weight block is the weight array, column (j 1) the output block's own column
    show V c main_arg4 (((cfg0.win 1).blk t).view.emb (ix2 k (j 1))) = _
    refine congrArg (V c main_arg4) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-! ## The blocks tile the rows -/

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row n lies in the block of point n / 2000, which writes back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := rfl
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-! ## The output array after the region -/

/-- The region's output array ends at the whole product of the feature array and the weights as the region finds them. -/
theorem final (c : Dev nD) : (dat0 V c).arrAt 2 cfg0.N = feat (V c main_arg0) (V c main_arg4) :=
  (dat0 V c).arrAt_eq_of_cover 2 (feat (V c main_arg0) (V c main_arg4)) (fun t _ => flushed_eq V c t) cover

end Cert.KernelIdeal.Region0

end
-- ==== Proof.Region1.lean ====
/-
  The second kernel region (bias, then maximum with zero), read as a value.

  The region walks the 50000 rows of its input array in 25 blocks of 2000 rows; point t reads rows
  2000·t … 2000·t + 1999 of the input, the whole bias vector, and writes the same rows of the output. Inside a
  block the body adds the bias to every row (the bias re-laid from [128] to [1, 128] and repeated down the 2000
  rows) and takes the maximum with the zero splat: entry (p, q) of the block is max (a[p, q] + b[q]) 0.

  So what point t writes back is block t of the one whole-array function `Spec.act` of the arrays as the region
  finds them; the 25 blocks tile the rows, every row n lying in block n / 2000; hence the output array ends at
  `Spec.act` of the region's entry contents. Everything here is stated for ANY entry contents `V` and any float
  instance: the region's operations are used only through "one element of each operand".
-/
import proofs.«162084_j14474039787903_1_alg».proof.Proof.Gen.KernelIdeal.Frame
import proofs.«162084_j14474039787903_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable {F : FTy → Type} [FloatOps F]

theorem off2 : (![0, 0] : Fin 2 → Nat) = fun _ => 0 := funext fun a => by fin_cases a <;> rfl
theorem off1 : (![0] : Fin 1 → Nat) = fun _ => 0 := funext fun a => by fin_cases a <;> rfl

/-! ## The body's arithmetic at one entry of a block -/

/-- The bias re-laid to [1, 128] and repeated down the rows, read at (p, q), is b[q]. -/
theorem bias_rows_apply (x1 : Vec F S128 .f32) (p : Fin 2000) (q : Fin 128) :
    broadcastTo S2000x128 (shapeCast S1x128 x1 shapeCasts_S128_S1x128) broadcasts_S1x128_S2000x128 (ix2 p q) = x1 (ix1 q) := by
  refine (broadcastTo_apply _ _ (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · refine (shapeCast_addUnit_apply ![128] x1 shapeCasts_S128_S1x128 (ix2 (0 : Fin 1) q)).trans ?_
    exact congrArg x1 (funext fun a => by match a with | ⟨0, _⟩ => rfl)

/-- Entry (p, q) of the block the body stores: max (a[p, q] + b[q]) 0. -/
theorem pay_apply (x0 : Vec F S2000x128 .f32) (x1 : Vec F S128 .f32) (p : Fin 2000) (q : Fin 128) :
    k1_pay1 x0 x1 (ix2 p q)
      = FloatOps.maximumf (FloatOps.addf (x0 (ix2 p q)) (x1 (ix1 q))) (FloatOps.ofBits .f32 0x00000000#32) := by
  unfold k1_pay1
  show FloatOps.maximumf (FloatOps.addf (shapeCast S2000x128 x0 shapeCasts_S2000x128_S2000x128 (ix2 p q))
      (broadcastTo S2000x128 (shapeCast S1x128 x1 shapeCasts_S128_S1x128) broadcasts_S1x128_S2000x128 (ix2 p q)))
      (FloatOps.ofBits .f32 0x00000000#32) = _
  rw [shapeCast_self, bias_rows_apply]

/-- The same at an index of the block. -/
theorem pay_at (x0 : Vec F S2000x128 .f32) (x1 : Vec F S128 .f32) (y : S2000x128.Idx) :
    k1_pay1 x0 x1 y
      = FloatOps.maximumf (FloatOps.addf (x0 y) (x1 (ix1 (y 1)))) (FloatOps.ofBits .f32 0x00000000#32) := by
  have e : y = ix2 (y 0) (y 1) := eq_ix2 y
  calc k1_pay1 x0 x1 y
      = k1_pay1 x0 x1 (ix2 (y 0) (y 1)) := congrArg (k1_pay1 x0 x1) e
    _ = FloatOps.maximumf (FloatOps.addf (x0 (ix2 (y 0) (y 1))) (x1 (ix1 (y 1)))) (FloatOps.ofBits .f32 0x00000000#32) :=
        pay_apply x0 x1 (y 0) (y 1)
    _ = FloatOps.maximumf (FloatOps.addf (x0 y) (x1 (ix1 (y 1)))) (FloatOps.ofBits .f32 0x00000000#32) :=
        congrArg (fun z => FloatOps.maximumf (FloatOps.addf (x0 z) (x1 (ix1 (y 1)))) (FloatOps.ofBits .f32 0x00000000#32)) e.symm

/-! ## Which rows a point touches -/

/-- The printed index maps over the 25 points: the input and the output move together down the rows, point t at
    block t; the column block is always the first; the bias is always its one block. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-! ## What a point writes back -/

/-- Point t writes back block t of `act` of the input array and the bias as the region finds them. -/
theorem flushed_eq (c : Dev nD) (t : Fin cfg1.N) :
    (dat1 V c).flushed 2 t = ((cfg1.win 2).blk t).view.read (Elt F) (act (V c main_v13) (V c main_arg5)) := by
  show (cfg1.win 2).cut (grid1.coords t) ((dat1 V c).after 2 t) = _
  rw [after1_2]
  unfold out1_2
  rw [View.canon_unit_zero off2]
  simp only [View.ld_unit_zero (S := S2000x128) off2, View.ld_unit_zero (S := S128) off1]
  obtain ⟨e0, e1, e2, e3, e4⟩ := idx_facts t
  funext j
  show k1_pay1 (iblk1 V c 0 t) (iblk1 V c 1 t) j = act (V c main_v13) (V c main_arg5) (((cfg1.win 2).blk t).view.emb j)
  rw [pay_at]
  show _ = FloatOps.maximumf (FloatOps.addf (V c main_v13 (((cfg1.win 2).blk t).view.emb j))
      (V c main_arg5 (ix1 ((((cfg1.win 2).blk t).view.emb j) 1)))) (FloatOps.ofBits .f32 0x00000000#32)
  -- the input block's entry j is the input array at the output block's own index
  have h0 : iblk1 V c 0 t j = V c main_v13 (((cfg1.win 2).blk t).view.emb j) := by
    show V c main_v13 (((cfg1.win 0).blk t).view.emb j) = _
    refine congrArg (V c main_v13) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  -- the bias block's entry is the bias at the output index's column
  have h1 : iblk1 V c 1 t (ix1 (j 1)) = V c main_arg5 (ix1 ((((cfg1.win 2).blk t).view.emb j) 1)) := by
    show V c main_arg5 (((cfg1.win 1).blk t).view.emb (ix1 (j 1))) = _
    refine congrArg (V c main_arg5) ?_
    funext a; apply Fin.ext
    match a with
    | ⟨0, _⟩ => show win1_1.index t (0 : Fin 1) * 128 + 1 * (j 1).val = win1_2.index t (1 : Fin 2) * 128 + 1 * (j 1).val; omega
  rw [h0, h1]

/-! ## The blocks tile the rows -/

/-- An index of the output array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v14).slice (win1_2.rect t)).set ↔ _
  rw [View.set_slice_whole, Rect.mem_set_unit]
  exact Iff.rfl

/-- Row n lies in the block of point n / 2000, which writes back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := rfl
  refine ⟨⟨(i 0).val / 2000, by rw [hN]; omega⟩, flush1_2 _, ?_⟩
  rw [mem_blk]
  obtain ⟨e0, e1, e2, e3, e4⟩ := idx_facts ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e3]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e4]; omega

/-! ## The output array after the region -/

/-- The region's output array ends at `act` of its input array and the bias as the region finds them. -/
theorem final (c : Dev nD) : (dat1 V c).arrAt 2 cfg1.N = act (V c main_v13) (V c main_arg5) :=
  (dat1 V c).arrAt_eq_of_cover 2 (act (V c main_v13) (V c main_arg5)) (fun t _ => flushed_eq V c t) cover

end Cert.KernelIdeal.Region1

end
-- ==== Proof.KernelValue.lean ====
/-
  The value the kernel's program ends with, as one function of its six arguments, on the extended reals.

  @main is: the dense-product region; then sixteen host operations that wrap negative column indices, gather the
  product's rows at the edges' columns, scale each gathered row by its edge value and add it into the row the
  edge points at, starting from zeros; then the bias-and-rectify region. The buffer contents at each segment
  boundary are a fold through @main, and reading that fold at the result buffer goes backwards through it:

    result        = what the second region leaves in its output array
                  = `Spec.act` of its input array and the bias, as that region finds them;
    its input     = the host chain `mid` of the first region's output and the three edge arrays;
    that output   = `Spec.feat` of the node features and the weights, as the first region finds them;

  and every argument array is found as launched, since nothing before writes it. The host chain is kept as ONE
  function `Chain.mid` of the four arrays it reads and is never opened: the reference applies the very same chain, so
  nothing about a gather or a scatter-add is needed beyond its being a function.
-/
import proofs.«162084_j14474039787903_1_alg».proof.Proof.Gen.KernelIdeal.Frame
import proofs.«162084_j14474039787903_1_alg».proof.Proof.Spec
import proofs.«162084_j14474039787903_1_alg».proof.Proof.Chain
import proofs.«162084_j14474039787903_1_alg».proof.Proof.Region0
import proofs.«162084_j14474039787903_1_alg».proof.Proof.Region1
import Idealize.ShloMosaic.Lib.StableHlo.Run

set_option maxRecDepth 16384

noncomputable section

namespace Cert.KernelIdeal.Whole

open Cert.KernelIdeal Cert.KernelIdeal.Gen Cert.KernelIdeal.Chain Cert.Spec
open Idealize.ShloMosaic Idealize.ShloMosaic.TcCoe Idealize.SL.Sem Idealize.ShloMosaic.StableHlo

section Chain
variable {F : FTy → Type} [FloatOps F]

variable (m : (ℓ : Loc nD τ sig) → Buf (Elt F) ℓ) (ρ : Dev nD → PrngReg)

/-- The second region finds, in its input array, the host chain of the first region's output and the edge arrays
    as the first region left them. -/
theorem agg_eq (c : Dev nD) :
    V2 m ρ c main_v13 = mid (W1 m ρ c (Proc.devRef .tc main_v0)) (W1 m ρ c (Proc.devRef .tc main_arg1))
      (W1 m ρ c (Proc.devRef .tc main_arg2)) (W1 m ρ c (Proc.devRef .tc main_arg3)) := by
  show StableHlo.after hostOps1 (W1 m ρ c) (Proc.devRef .tc main_v13) = _
  after_results
  rfl

/-- The first region writes none of the edge arrays: it leaves them as launched. -/
theorem rows_eq (c : Dev nD) : W1 m ρ c (Proc.devRef .tc main_arg1) = m ((c : Thread nD τ).loc main_arg1) :=
  W1_of_ne m ρ c main_arg1 (by decide)
theorem cols_eq (c : Dev nD) : W1 m ρ c (Proc.devRef .tc main_arg2) = m ((c : Thread nD τ).loc main_arg2) :=
  W1_of_ne m ρ c main_arg2 (by decide)
theorem vals_eq (c : Dev nD) : W1 m ρ c (Proc.devRef .tc main_arg3) = m ((c : Thread nD τ).loc main_arg3) :=
  W1_of_ne m ρ c main_arg3 (by decide)

/-- The second region finds the bias as launched: it only reads it, and nothing before writes it. -/
theorem bias_eq (c : Dev nD) : V2 m ρ c main_arg5 = m ((c : Thread nD τ).loc main_arg5) :=
  ((W3_arr m ρ c 1).trans (((dat1 (V2 m ρ) c).arrAt_in 1 rfl _).trans (A_eq1 (V2 m ρ) c 1))).symm.trans (W3_main_arg5 m ρ c)

end Chain

/-! ## On the extended reals -/

variable (m : (ℓ : Loc nD τ sig) → Buf (Elt Ideal) ℓ) (ρ : Dev nD → PrngReg)

/-- The first region leaves the dense product of the launched node features and weights in its output array. -/
theorem pre_eq (c : Dev nD) :
    W1 m ρ c (Proc.devRef .tc main_v0) = feat (m ((c : Thread nD τ).loc main_arg0)) (m ((c : Thread nD τ).loc main_arg4)) :=
  (W1_arr m ρ c 2).trans (Region0.final (V0 m ρ) c)

/-- The kernel's result as one function of the launched arguments: bias-and-rectify of the host chain of the dense
    product. -/
def out (c : Dev nD) : FVec Ideal SO .f32 :=
  act (F := Ideal) (mid (F := Ideal) (feat (m ((c : Thread nD τ).loc main_arg0)) (m ((c : Thread nD τ).loc main_arg4)))
      (m ((c : Thread nD τ).loc main_arg1)) (m ((c : Thread nD τ).loc main_arg2)) (m ((c : Thread nD τ).loc main_arg3)))
    (m ((c : Thread nD τ).loc main_arg5))

/-- The second region's input array is the host chain of the dense product and the launched edge arrays. -/
theorem agg_full (c : Dev nD) :
    V2 m ρ c main_v13 = mid (F := Ideal) (feat (m ((c : Thread nD τ).loc main_arg0)) (m ((c : Thread nD τ).loc main_arg4)))
      (m ((c : Thread nD τ).loc main_arg1)) (m ((c : Thread nD τ).loc main_arg2)) (m ((c : Thread nD τ).loc main_arg3)) := by
  rw [agg_eq, pre_eq, rows_eq, cols_eq, vals_eq]

/-- The result buffer at the last segment boundary holds `out`. -/
theorem value (c : Dev nD) : W3 m ρ c (Proc.devRef .tc main_v14) = out m c := by
  refine (W3_arr m ρ c 2).trans ((Region1.final (V2 m ρ) c).trans ?_)
  rw [agg_full, bias_eq]
  rfl

end Cert.KernelIdeal.Whole

end
-- ==== Proof.RefValue.lean ====
/-
  The value the reference computes, as the same function of the six arguments, on the extended reals.

  The reference's @main is: one whole dense product of the node features and the weights; the same sixteen host
  operations as the kernel's program (`Chain.mid`); the bias repeated down the rows and added; the maximum with a
  zero array. Read one stage at a time:

    the product stage at (n, j) is the sum over the 256 input features k of x[n, k] · w[k, j] — `Spec.feat`;
    the chain stage is `Chain.mid` of that product and the edge arrays — the two programs' records of the gather
      and of the scatter-add have the same fields, so this is an unfolding, with nothing of the chain opened;
    the last three stages at (n, j) are max (agg[n, j] + b[j]) 0 — `Spec.act` —, the bias read through its two
      re-layings [128] → [1, 128] → [50000, 128] at its column j.
-/
import proofs.«162084_j14474039787903_1_alg».proof.Proof.Gen.ReferenceIdeal.Read
import proofs.«162084_j14474039787903_1_alg».proof.Proof.Spec
import proofs.«162084_j14474039787903_1_alg».proof.Proof.Chain

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-- The reference's dense product is `feat`: at (n, j) the left operand is read at (n, k), the right at (k, j). -/
theorem dot_eq (x0 : (⟨S50000x256, .f32⟩ : BufTy).Contents (Elt Ideal)) (x4 : (⟨S256x128, .f32⟩ : BufTy).Contents (Elt Ideal)) :
    val_main_v0 (F := Ideal) x0 x4 = feat x0 x4 := by
  funext i
  rw [val_main_v0_apply]
  show _ = ∑ k : Fin 256, x0 (ix2 (i 0) k) * x4 (ix2 k (i 1))
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

section Chain
variable {F : FTy → Type} [FloatOps F]

/-- The reference's chain stage is the shared host chain of its product stage and the edge arrays. -/
theorem chain_eq (x0 : (⟨S50000x256, .f32⟩ : BufTy).Contents (Elt F)) (x1 x2 : (⟨S1600000, .i32⟩ : BufTy).Contents (Elt F))
    (x3 : (⟨S1600000, .f32⟩ : BufTy).Contents (Elt F)) (x4 : (⟨S256x128, .f32⟩ : BufTy).Contents (Elt F)) :
    val_main_v13 (F := F) x0 x1 x2 x3 x4 = Cert.KernelIdeal.Chain.mid (F := F) (val_main_v0 (F := F) x0 x4) x1 x2 x3 := rfl

end Chain

/-- The reference's result is bias-and-rectify of the host chain of the dense product. -/
theorem result_eq (x0 : (⟨S50000x256, .f32⟩ : BufTy).Contents (Elt Ideal)) (x1 x2 : (⟨S1600000, .i32⟩ : BufTy).Contents (Elt Ideal))
    (x3 : (⟨S1600000, .f32⟩ : BufTy).Contents (Elt Ideal)) (x4 : (⟨S256x128, .f32⟩ : BufTy).Contents (Elt Ideal))
    (x5 : (⟨S128, .f32⟩ : BufTy).Contents (Elt Ideal)) :
    val_main_v17 (F := Ideal) x0 x1 x2 x3 x4 x5
      = act (F := Ideal) (Cert.KernelIdeal.Chain.mid (F := Ideal) (feat x0 x4) x1 x2 x3) x5 := by
  funext i
  rw [val_main_v17_apply, val_main_v16_apply, val_main_v15_apply, val_main_v14_apply, val_main_call0_v0_apply,
    val_main_call0_cst_apply, chain_eq, dot_eq]
  have e : idx_main_v14 (idx_main_v15 i) = ix1 (i 1) := funext fun a => Fin.ext (by
    match a with
    | ⟨0, _⟩ => rfl)
  rw [e]
  rfl

end Cert.ReferenceIdeal.RefValue

end
-- ==== Proof.lean ====
/-
  A graph-convolution layer, certified equal to its reference on the extended reals.

  Both programs compute, for 50000 nodes with 256 input and 128 output features and 1600000 weighted edges,

      out[r, j] = max ( ( sum over the edges e with rows[e] = r of vals[e] · (x · w)[cols[e], j] ) + b[j] , 0 ).

  The kernel's program forms the dense product x · w in a first kernel region, 2000 rows at a time, its operands
  narrowed to a shorter float format on the way into the multiplier; gathers, scales and sums the edges with
  sixteen host operations; and adds the bias and rectifies in a second kernel region, again 2000 rows at a time.
  The reference forms x · w in one host product, applies the same sixteen host operations, and adds the bias and
  rectifies with host operations.

  On the extended reals a change of float format is the identity, a product into a zero accumulator is the plain
  sum over the contraction index, and a host product is that same sum. Neither program splits or reorders the sum
  over the 256 input features — the kernel only cuts the ROWS into blocks — so the two dense products agree term
  by term (`Spec.feat`); the sixteen host operations are one and the same function of the product and the edge
  arrays in both programs (`Chain.mid`), so equal products give equal aggregates whatever an index outside the
  array does; and bias-then-rectify is the same entry-by-entry function on both sides (`Spec.act`). No law of
  the extended reals that could fail at an infinity is used, so the precondition (finite inputs) is never opened.

    frames      the two kernel programs' frames are the generated ones; the reference's is its generated run with
                the result dropped;
    preserves   the idealization rewrote no operation: nothing to show;
    algebraic   the kernel's run with its result buffer named (`GenRun.run_named`) ends at `Whole.out` of the
                arguments (`Whole.value`: the two regions read as whole-array functions, the host chain between
                them kept closed), and the reference's generated run ends at the same function of arguments that
                agree (`RefValue.result_eq`).
-/
import proofs.«162084_j14474039787903_1_alg».proof.Defs
import proofs.«162084_j14474039787903_1_alg».proof.Proof.Gen.Kernel
import proofs.«162084_j14474039787903_1_alg».proof.Proof.Gen.Kernel.Frame
import proofs.«162084_j14474039787903_1_alg».proof.Proof.Gen.KernelIdeal
import proofs.«162084_j14474039787903_1_alg».proof.Proof.Gen.KernelIdeal.Frame
import proofs.«162084_j14474039787903_1_alg».proof.Proof.Gen.ReferenceIdeal
import proofs.«162084_j14474039787903_1_alg».proof.Proof.Gen.Pre_finite_inputs
import proofs.«162084_j14474039787903_1_alg».proof.Proof.Gen.ReferenceIdeal.Run
import proofs.«162084_j14474039787903_1_alg».proof.Proof.Gen.ReferenceIdeal.Read
import proofs.«162084_j14474039787903_1_alg».proof.Proof.KernelRun
import proofs.«162084_j14474039787903_1_alg».proof.Proof.KernelValue
import proofs.«162084_j14474039787903_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the six arguments both programs end with `Whole.out` of them in their result
    buffers: the kernel's by the two regions' whole-array values around the closed host chain, the reference's by
    its stages read one at a time. -/
theorem algebraic : Cert.algebraic_KernelIdeal_ReferenceIdeal := by
  intro m ρ m' ρ' _ hagree
  refine ⟨fun c => Cert.KernelIdeal.Whole.out m c, ?_, ?_⟩
  · exact (θ_run Cert.KernelIdeal.defs _ _).mono
      (fun r h c => ⟨(h c).1.trans (Cert.KernelIdeal.Whole.value m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v17_eq _ _ _ _ _ _).trans
      (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
